-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S524288x12 : Shape := ⟨2, ![524288, 12]⟩
abbrev S524288x1 : Shape := ⟨2, ![524288, 1]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S524288x1 : S_.BroadcastsInDim S524288x1 (![] : Fin 0 → Fin S524288x1.rank)
  reducesTo_S524288x1_S_d0_1 : S524288x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : IVec S524288x12 32) (main_arg2 : FVec F S524288x1 .f32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S524288x1 .f32 := Host.absf main_arg2
  let main_cst_0 : FVec F S_ .f32 := constant S_ .f32 0x7F800000#32
  let main_v5 : FVec F S524288x1 .f32 := broadcastInDim S524288x1 ![] bcast_S_S524288x1 main_cst_0
  let main_v6 : IVec S524288x1 1 := cmpf .olt main_v4 main_v5
  let main_c_1 : IVec S_ 1 := constantI S_ 1 1#1
  let main_v7 : IVec S_ 1 := (fun x v => Host.reduce IntOp.andi x v reducesTo_S524288x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S524288x12 : Shape := ⟨2, ![524288, 12]⟩
abbrev S524288x1 : Shape := ⟨2, ![524288, 1]⟩
abbrev S4096 : Shape := ⟨1, ![4096]⟩
abbrev S524288x4x3 : Shape := ⟨3, ![524288, 4, 3]⟩
abbrev S_ : Shape := ⟨0, ![]⟩
abbrev S524288x4x1 : Shape := ⟨3, ![524288, 4, 1]⟩
abbrev S524288x4 : Shape := ⟨2, ![524288, 4]⟩
abbrev S524288x4x8 : Shape := ⟨3, ![524288, 4, 8]⟩
abbrev S524288x32 : Shape := ⟨2, ![524288, 32]⟩
abbrev S16777216 : Shape := ⟨1, ![16777216]⟩
abbrev S4096x4096 : Shape := ⟨2, ![4096, 4096]⟩
abbrev S16384x4096 : Shape := ⟨2, ![16384, 4096]⟩
abbrev S1x4096 : Shape := ⟨2, ![1, 4096]⟩
abbrev S64x4096 : Shape := ⟨2, ![64, 4096]⟩

abbrev nBuf : Space → Nat
  | .hbm => 101
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S524288x12, .i32⟩
  | .hbm, ⟨2, _⟩ => ⟨S524288x1, .f32⟩
  | .hbm, ⟨3, _⟩ => ⟨S4096, .f32⟩
  | .hbm, ⟨4, _⟩ => ⟨S524288x4x3, .i32⟩
  | .hbm, ⟨5, _⟩ => ⟨S_, .i32⟩
  | .hbm, ⟨6, _⟩ => ⟨S524288x4x3, .i32⟩
  | .hbm, ⟨7, _⟩ => ⟨S524288x4x3, .i32⟩
  | .hbm, ⟨8, _⟩ => ⟨S524288x4x1, .i32⟩
  | .hbm, ⟨9, _⟩ => ⟨S524288x4, .i32⟩
  | .hbm, ⟨10, _⟩ => ⟨S524288x4x1, .i32⟩
  | .hbm, ⟨11, _⟩ => ⟨S524288x4, .i32⟩
  | .hbm, ⟨12, _⟩ => ⟨S524288x4x1, .i32⟩
  | .hbm, ⟨13, _⟩ => ⟨S524288x4, .i32⟩
  | .hbm, ⟨14, _⟩ => ⟨S_, .i32⟩
  | .hbm, ⟨15, _⟩ => ⟨S524288x4, .i32⟩
  | .hbm, ⟨16, _⟩ => ⟨S524288x4, .i32⟩
  | .hbm, ⟨17, _⟩ => ⟨S_, .i32⟩
  | .hbm, ⟨18, _⟩ => ⟨S524288x4, .i32⟩
  | .hbm, ⟨19, _⟩ => ⟨S524288x4, .i32⟩
  | .hbm, ⟨20, _⟩ => ⟨S_, .i32⟩
  | .hbm, ⟨21, _⟩ => ⟨S524288x4, .i32⟩
  | .hbm, ⟨22, _⟩ => ⟨S524288x4, .i32⟩
  | .hbm, ⟨23, _⟩ => ⟨S_, .i32⟩
  | .hbm, ⟨24, _⟩ => ⟨S524288x4, .i32⟩
  | .hbm, ⟨25, _⟩ => ⟨S524288x4, .i32⟩
  | .hbm, ⟨26, _⟩ => ⟨S_, .i32⟩
  | .hbm, ⟨27, _⟩ => ⟨S524288x4, .i32⟩
  | .hbm, ⟨28, _⟩ => ⟨S524288x4, .i32⟩
  | .hbm, ⟨29, _⟩ => ⟨S_, .i32⟩
  | .hbm, ⟨30, _⟩ => ⟨S524288x4, .i32⟩
  | .hbm, ⟨31, _⟩ => ⟨S524288x4, .i32⟩
  | .hbm, ⟨32, _⟩ => ⟨S_, .i32⟩
  | .hbm, ⟨33, _⟩ => ⟨S524288x4, .i32⟩
  | .hbm, ⟨34, _⟩ => ⟨S524288x4, .i32⟩
  | .hbm, ⟨35, _⟩ => ⟨S524288x4, .i32⟩
  | .hbm, ⟨36, _⟩ => ⟨S_, .i32⟩
  | .hbm, ⟨37, _⟩ => ⟨S524288x4, .i32⟩
  | .hbm, ⟨38, _⟩ => ⟨S524288x4, .i32⟩
  | .hbm, ⟨39, _⟩ => ⟨S_, .i32⟩
  | .hbm, ⟨40, _⟩ => ⟨S524288x4, .i32⟩
  | .hbm, ⟨41, _⟩ => ⟨S524288x4, .i32⟩
  | .hbm, ⟨42, _⟩ => ⟨S_, .i32⟩
  | .hbm, ⟨43, _⟩ => ⟨S524288x4, .i32⟩
  | .hbm, ⟨44, _⟩ => ⟨S524288x4, .i32⟩
  | .hbm, ⟨45, _⟩ => ⟨S_, .i32⟩
  | .hbm, ⟨46, _⟩ => ⟨S524288x4, .i32⟩
  | .hbm, ⟨47, _⟩ => ⟨S524288x4, .i32⟩
  | .hbm, ⟨48, _⟩ => ⟨S_, .i32⟩
  | .hbm, ⟨49, _⟩ => ⟨S524288x4, .i32⟩
  | .hbm, ⟨50, _⟩ => ⟨S524288x4, .i32⟩
  | .hbm, ⟨51, _⟩ => ⟨S_, .i32⟩
  | .hbm, ⟨52, _⟩ => ⟨S524288x4, .i32⟩
  | .hbm, ⟨53, _⟩ => ⟨S524288x4, .i32⟩
  | .hbm, ⟨54, _⟩ => ⟨S_, .i32⟩
  | .hbm, ⟨55, _⟩ => ⟨S524288x4, .i32⟩
  | .hbm, ⟨56, _⟩ => ⟨S524288x4, .i32⟩
  | .hbm, ⟨57, _⟩ => ⟨S_, .i32⟩
  | .hbm, ⟨58, _⟩ => ⟨S524288x4, .i32⟩
  | .hbm, ⟨59, _⟩ => ⟨S524288x4, .i32⟩
  | .hbm, ⟨60, _⟩ => ⟨S524288x4, .i32⟩
  | .hbm, ⟨61, _⟩ => ⟨S_, .i32⟩
  | .hbm, ⟨62, _⟩ => ⟨S524288x4, .i32⟩
  | .hbm, ⟨63, _⟩ => ⟨S524288x4, .i32⟩
  | .hbm, ⟨64, _⟩ => ⟨S_, .i32⟩
  | .hbm, ⟨65, _⟩ => ⟨S524288x4, .i32⟩
  | .hbm, ⟨66, _⟩ => ⟨S524288x4, .i32⟩
  | .hbm, ⟨67, _⟩ => ⟨S_, .i32⟩
  | .hbm, ⟨68, _⟩ => ⟨S524288x4, .i32⟩
  | .hbm, ⟨69, _⟩ => ⟨S524288x4, .i32⟩
  | .hbm, ⟨70, _⟩ => ⟨S_, .i32⟩
  | .hbm, ⟨71, _⟩ => ⟨S524288x4, .i32⟩
  | .hbm, ⟨72, _⟩ => ⟨S524288x4, .i32⟩
  | .hbm, ⟨73, _⟩ => ⟨S524288x4x1, .i32⟩
  | .hbm, ⟨74, _⟩ => ⟨S524288x4x1, .i32⟩
  | .hbm, ⟨75, _⟩ => ⟨S524288x4x1, .i32⟩
  | .hbm, ⟨76, _⟩ => ⟨S524288x4x1, .i32⟩
  | .hbm, ⟨77, _⟩ => ⟨S524288x4x1, .i32⟩
  | .hbm, ⟨78, _⟩ => ⟨S524288x4x1, .i32⟩
  | .hbm, ⟨79, _⟩ => ⟨S524288x4x1, .i32⟩
  | .hbm, ⟨80, _⟩ => ⟨S524288x4x1, .i32⟩
  | .hbm, ⟨81, _⟩ => ⟨S524288x4x8, .i32⟩
  | .hbm, ⟨82, _⟩ => ⟨S524288x32, .i32⟩
  | .hbm, ⟨83, _⟩ => ⟨S524288x32, .f32⟩
  | .hbm, ⟨84, _⟩ => ⟨S_, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x32, .f32⟩
  | .hbm, ⟨89, _⟩ => ⟨S524288x32, .f32⟩
  | .hbm, ⟨90, _⟩ => ⟨S524288x32, .f32⟩
  | .hbm, ⟨91, _⟩ => ⟨S524288x32, .f32⟩
  | .hbm, ⟨92, _⟩ => ⟨S524288x32, .f32⟩
  | .hbm, ⟨93, _⟩ => ⟨S524288x32, .f32⟩
  | .hbm, ⟨94, _⟩ => ⟨S16777216, .f32⟩
  | .hbm, ⟨95, _⟩ => ⟨S4096x4096, .f32⟩
  | .hbm, ⟨96, _⟩ => ⟨S4096x4096, .bf16⟩
  | .hbm, ⟨97, _⟩ => ⟨S16384x4096, .f32⟩
  | .hbm, ⟨98, _⟩ => ⟨S1x4096, .f32⟩
  | .hbm, ⟨99, _⟩ => ⟨S16384x4096, .f32⟩
  | .hbm, ⟨100, _⟩ => ⟨S8x2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S64x4096, .f32⟩
  | .local _ .vmem, ⟨5, _⟩ => ⟨S64x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_c_13 : Ref sig .tc := ⟨.hbm, 54, rfl⟩
abbrev main_v36 : Ref sig .tc := ⟨.hbm, 55, rfl⟩
abbrev main_v37 : Ref sig .tc := ⟨.hbm, 56, rfl⟩
abbrev main_c_14 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_15 : Ref sig .tc := ⟨.hbm, 61, rfl⟩
abbrev main_v41 : Ref sig .tc := ⟨.hbm, 62, rfl⟩
abbrev main_v42 : Ref sig .tc := ⟨.hbm, 63, rfl⟩
abbrev main_c_16 : Ref sig .tc := ⟨.hbm, 64, rfl⟩
abbrev main_v43 : Ref sig .tc := ⟨.hbm, 65, rfl⟩
abbrev main_v44 : Ref sig .tc := ⟨.hbm, 66, rfl⟩
abbrev main_c_17 : Ref sig .tc := ⟨.hbm, 67, rfl⟩
abbrev main_v45 : Ref sig .tc := ⟨.hbm, 68, rfl⟩
abbrev main_v46 : Ref sig .tc := ⟨.hbm, 69, rfl⟩
abbrev main_c_18 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst : Ref sig .tc := ⟨.hbm, 84, rfl⟩
abbrev main_v60 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S524288x12_S524288x4x3 : S524288x12.ShapeCasts S524288x4x3
  bcast_S_S524288x4x3 : S_.BroadcastsInDim S524288x4x3 (![] : Fin 0 → Fin S524288x4x3.rank)
  slices_S524288x4x3_S524288x4x1_0_0_0 : S524288x4x3.Slices ![0, 0, 0] S524288x4x1
  shapeCasts_S524288x4x1_S524288x4 : S524288x4x1.ShapeCasts S524288x4
  slices_S524288x4x3_S524288x4x1_0_0_1 : S524288x4x3.Slices ![0, 0, 1] S524288x4x1
  slices_S524288x4x3_S524288x4x1_0_0_2 : S524288x4x3.Slices ![0, 0, 2] S524288x4x1
  bcast_S_S524288x4 : S_.BroadcastsInDim S524288x4 (![] : Fin 0 → Fin S524288x4.rank)
  bcast_S524288x4_S524288x4x1_0_1 : S524288x4.BroadcastsInDim S524288x4x1 (![0, 1] : Fin 2 → Fin S524288x4x1.rank)
  concatenates_S524288x4x1_S524288x4x1_S524288x4x1_S524288x4x1_S524288x4x1_S524288x4x1_S524288x4x1_S524288x4x1_S524288x4x8_d2 : Shape.Concatenates [S524288x4x1, S524288x4x1, S524288x4x1, S524288x4x1, S524288x4x1, S524288x4x1, S524288x4x1, S524288x4x1] S524288x4x8 2
  shapeCasts_S524288x4x8_S524288x32 : S524288x4x8.ShapeCasts S524288x32
  bcast_S_S524288x32 : S_.BroadcastsInDim S524288x32 (![] : Fin 0 → Fin S524288x32.rank)
  bcast_S524288x1_S524288x32_0_1 : S524288x1.BroadcastsInDim S524288x32 (![0, 1] : Fin 2 → Fin S524288x32.rank)
  shapeCasts_S524288x32_S16777216 : S524288x32.ShapeCasts S16777216
  shapeCasts_S16777216_S4096x4096 : S16777216.ShapeCasts S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  shapeCasts_S16384x4096_S8x2048x4096 : S16384x4096.ShapeCasts S8x2048x4096
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S16384x4096.size a
  hwx0_3 : ∀ i : grid0.Coords, EltTy.bits .f32 = 32 ∨ (Rect.block (s := S16384x4096) S64x4096.size (cc0_transform_3 i) (hinb0_3 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_v71) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S524288x12 : Shape := ⟨2, ![524288, 12]⟩
abbrev S524288x1 : Shape := ⟨2, ![524288, 1]⟩
abbrev S4096 : Shape := ⟨1, ![4096]⟩
abbrev S524288x4x3 : Shape := ⟨3, ![524288, 4, 3]⟩
abbrev S524288x4x1 : Shape := ⟨3, ![524288, 4, 1]⟩
abbrev S524288x4 : Shape := ⟨2, ![524288, 4]⟩
abbrev S_ : Shape := ⟨0, ![]⟩
abbrev S524288x4x8 : Shape := ⟨3, ![524288, 4, 8]⟩
abbrev S524288x32 : Shape := ⟨2, ![524288, 32]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S524288x12, .i32⟩
  | .hbm, ⟨2, _⟩ => ⟨S524288x1, .f32⟩
  | .hbm, ⟨3, _⟩ => ⟨S4096, .f32⟩
  | .hbm, ⟨4, _⟩ => ⟨S524288x4x3, .i32⟩
  | .hbm, ⟨5, _⟩ => ⟨S524288x4x1, .i32⟩
  | .hbm, ⟨6, _⟩ => ⟨S524288x4, .i32⟩
  | .hbm, ⟨7, _⟩ => ⟨S524288x4x1, .i32⟩
  | .hbm, ⟨8, _⟩ => ⟨S524288x4, .i32⟩
  | .hbm, ⟨9, _⟩ => ⟨S524288x4x1, .i32⟩
  | .hbm, ⟨10, _⟩ => ⟨S524288x4, .i32⟩
  | .hbm, ⟨11, _⟩ => ⟨S_, .i32⟩
  | .hbm, ⟨12, _⟩ => ⟨S524288x4, .i32⟩
  | .hbm, ⟨13, _⟩ => ⟨S524288x4, .i32⟩
  | .hbm, ⟨14, _⟩ => ⟨S_, .i32⟩
  | .hbm, ⟨15, _⟩ => ⟨S524288x4, .i32⟩
  | .hbm, ⟨16, _⟩ => ⟨S524288x4, .i32⟩
  | .hbm, ⟨17, _⟩ => ⟨S_, .i32⟩
  | .hbm, ⟨18, _⟩ => ⟨S524288x4, .i32⟩
  | .hbm, ⟨19, _⟩ => ⟨S524288x4, .i32⟩
  | .hbm, ⟨20, _⟩ => ⟨S_, .i32⟩
  | .hbm, ⟨21, _⟩ => ⟨S524288x4, .i32⟩
  | .hbm, ⟨22, _⟩ => ⟨S524288x4, .i32⟩
  | .hbm, ⟨23, _⟩ => ⟨S_, .i32⟩
  | .hbm, ⟨24, _⟩ => ⟨S524288x4, .i32⟩
  | .hbm, ⟨25, _⟩ => ⟨S524288x4, .i32⟩
  | .hbm, ⟨26, _⟩ => ⟨S_, .i32⟩
  | .hbm, ⟨27, _⟩ => ⟨S524288x4, .i32⟩
  | .hbm, ⟨28, _⟩ => ⟨S524288x4, .i32⟩
  | .hbm, ⟨29, _⟩ => ⟨S_, .i32⟩
  | .hbm, ⟨30, _⟩ => ⟨S524288x4, .i32⟩
  | .hbm, ⟨31, _⟩ => ⟨S524288x4, .i32⟩
  | .hbm, ⟨32, _⟩ => ⟨S524288x4, .i32⟩
  | .hbm, ⟨33, _⟩ => ⟨S_, .i32⟩
  | .hbm, ⟨34, _⟩ => ⟨S524288x4, .i32⟩
  | .hbm, ⟨35, _⟩ => ⟨S524288x4, .i32⟩
  | .hbm, ⟨36, _⟩ => ⟨S_, .i32⟩
  | .hbm, ⟨37, _⟩ => ⟨S524288x4, .i32⟩
  | .hbm, ⟨38, _⟩ => ⟨S524288x4, .i32⟩
  | .hbm, ⟨39, _⟩ => ⟨S_, .i32⟩
  | .hbm, ⟨40, _⟩ => ⟨S524288x4, .i32⟩
  | .hbm, ⟨41, _⟩ => ⟨S524288x4, .i32⟩
  | .hbm, ⟨42, _⟩ => ⟨S_, .i32⟩
  | .hbm, ⟨43, _⟩ => ⟨S524288x4, .i32⟩
  | .hbm, ⟨44, _⟩ => ⟨S524288x4, .i32⟩
  | .hbm, ⟨45, _⟩ => ⟨S_, .i32⟩
  | .hbm, ⟨46, _⟩ => ⟨S524288x4, .i32⟩
  | .hbm, ⟨47, _⟩ => ⟨S524288x4, .i32⟩
  | .hbm, ⟨48, _⟩ => ⟨S_, .i32⟩
  | .hbm, ⟨49, _⟩ => ⟨S524288x4, .i32⟩
  | .hbm, ⟨50, _⟩ => ⟨S524288x4, .i32⟩
  | .hbm, ⟨51, _⟩ => ⟨S_, .i32⟩
  | .hbm, ⟨52, _⟩ => ⟨S524288x4, .i32⟩
  | .hbm, ⟨53, _⟩ => ⟨S524288x4, .i32⟩
  | .hbm, ⟨54, _⟩ => ⟨S_, .i32⟩
  | .hbm, ⟨55, _⟩ => ⟨S524288x4, .i32⟩
  | .hbm, ⟨56, _⟩ => ⟨S524288x4, .i32⟩
  | .hbm, ⟨57, _⟩ => ⟨S524288x4, .i32⟩
  | .hbm, ⟨58, _⟩ => ⟨S_, .i32⟩
  | .hbm, ⟨59, _⟩ => ⟨S524288x4, .i32⟩
  | .hbm, ⟨60, _⟩ => ⟨S524288x4, .i32⟩
  | .hbm, ⟨61, _⟩ => ⟨S_, .i32⟩
  | .hbm, ⟨62, _⟩ => ⟨S524288x4, .i32⟩
  | .hbm, ⟨63, _⟩ => ⟨S524288x4, .i32⟩
  | .hbm, ⟨64, _⟩ => ⟨S_, .i32⟩
  | .hbm, ⟨65, _⟩ => ⟨S524288x4, .i32⟩
  | .hbm, ⟨66, _⟩ => ⟨S524288x4, .i32⟩
  | .hbm, ⟨67, _⟩ => ⟨S_, .i32⟩
  | .hbm, ⟨68, _⟩ => ⟨S524288x4, .i32⟩
  | .hbm, ⟨69, _⟩ => ⟨S524288x4, .i32⟩
  | .hbm, ⟨70, _⟩ => ⟨S524288x4x1, .i32⟩
  | .hbm, ⟨71, _⟩ => ⟨S524288x4x1, .i32⟩
  | .hbm, ⟨72, _⟩ => ⟨S524288x4x1, .i32⟩
  | .hbm, ⟨73, _⟩ => ⟨S524288x4x1, .i32⟩
  | .hbm, ⟨74, _⟩ => ⟨S524288x4x1, .i32⟩
  | .hbm, ⟨75, _⟩ => ⟨S524288x4x1, .i32⟩
  | .hbm, ⟨76, _⟩ => ⟨S524288x4x1, .i32⟩
  | .hbm, ⟨77, _⟩ => ⟨S524288x4x1, .i32⟩
  | .hbm, ⟨78, _⟩ => ⟨S524288x4x8, .i32⟩
  | .hbm, ⟨79, _⟩ => ⟨S524288x32, .i32⟩
  | .hbm, ⟨80, _⟩ => ⟨S524288x32, .f32⟩
  | .hbm, ⟨81, _⟩ => ⟨S_, .f32⟩
  | .hbm, ⟨82, _⟩ => ⟨S524288x32, .f32⟩
  | .hbm, ⟨83, _⟩ => ⟨S524288x32, .f32⟩
  | .hbm, ⟨84, _⟩ => ⟨S_, .f32⟩
  | .hbm, ⟨85, _⟩ => ⟨S524288x32, .f32⟩
  | .hbm, ⟨86, _⟩ => ⟨S524288x32, .f32⟩
  | .hbm, ⟨87, _⟩ => ⟨S524288x32, .f32⟩
  | .hbm, ⟨88, _⟩ => ⟨S524288x32, .f32⟩
  | .hbm, ⟨89, _⟩ => ⟨S524288x32, .f32⟩
  | .hbm, ⟨90, _⟩ => ⟨S524288x32, .f32⟩
  | .hbm, ⟨91, _⟩ => ⟨S16777216, .f32⟩
  | .hbm, ⟨92, _⟩ => ⟨S4096x4096, .f32⟩
  | .hbm, ⟨93, _⟩ => ⟨S8x2048x4096, .f32⟩
  | .hbm, ⟨94, _⟩ => ⟨S1x1x4096, .f32⟩
  | .hbm, ⟨95, _⟩ => ⟨S8x2048x4096, .f32⟩
  | .hbm, ⟨96, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_c_13 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_14 : Ref sig .tc := ⟨.hbm, 58, rfl⟩
abbrev main_v39 : Ref sig .tc := ⟨.hbm, 59, rfl⟩
abbrev main_v40 : Ref sig .tc := ⟨.hbm, 60, rfl⟩
abbrev main_c_15 : Ref sig .tc := ⟨.hbm, 61, rfl⟩
abbrev main_v41 : Ref sig .tc := ⟨.hbm, 62, rfl⟩
abbrev main_v42 : Ref sig .tc := ⟨.hbm, 63, rfl⟩
abbrev main_c_16 : Ref sig .tc := ⟨.hbm, 64, rfl⟩
abbrev main_v43 : Ref sig .tc := ⟨.hbm, 65, rfl⟩
abbrev main_v44 : Ref sig .tc := ⟨.hbm, 66, rfl⟩
abbrev main_c_17 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]

class Facts₀ : Prop where
  shapeCasts_S524288x12_S524288x4x3 : S524288x12.ShapeCasts S524288x4x3
  slices_S524288x4x3_S524288x4x1_0_0_0 : S524288x4x3.Slices ![0, 0, 0] S524288x4x1
  shapeCasts_S524288x4x1_S524288x4 : S524288x4x1.ShapeCasts S524288x4
  slices_S524288x4x3_S524288x4x1_0_0_1 : S524288x4x3.Slices ![0, 0, 1] S524288x4x1
  slices_S524288x4x3_S524288x4x1_0_0_2 : S524288x4x3.Slices ![0, 0, 2] S524288x4x1
  bcast_S_S524288x4 : S_.BroadcastsInDim S524288x4 (![] : Fin 0 → Fin S524288x4.rank)
  bcast_S524288x4_S524288x4x1_0_1 : S524288x4.BroadcastsInDim S524288x4x1 (![0, 1] : Fin 2 → Fin S524288x4x1.rank)
  concatenates_S524288x4x1_S524288x4x1_S524288x4x1_S524288x4x1_S524288x4x1_S524288x4x1_S524288x4x1_S524288x4x1_S524288x4x8_d2 : Shape.Concatenates [S524288x4x1, S524288x4x1, S524288x4x1, S524288x4x1, S524288x4x1, S524288x4x1, S524288x4x1, S524288x4x1] S524288x4x8 2
  shapeCasts_S524288x4x8_S524288x32 : S524288x4x8.ShapeCasts S524288x32
  bcast_S_S524288x32 : S_.BroadcastsInDim S524288x32 (![] : Fin 0 → Fin S524288x32.rank)
  bcast_S524288x1_S524288x32_0_1 : S524288x1.BroadcastsInDim S524288x32 (![0, 1] : Fin 2 → Fin S524288x32.rank)
  shapeCasts_S524288x32_S16777216 : S524288x32.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KernelFrame.lean ====
/-
  The frame of the kernel program as printed (floats as words), and its run with every output named.

  The program is: ninety-five host operations that unpack the 3-bit weights (among them one concatenation of eight
  planes), one pipelined matrix product over 256 row blocks, and one host reshape of the product. On each core the
  region finds the three input arrays (the rows of the activations, the unpacked weights, the bias as one row) at what
  the host operations before it computed; at grid point t the body reads the t-th block of 64 rows, the whole weight
  matrix and the bias row, and stores into the output's staging buffer the value "rows times weights-transposed plus
  bias" of what it read; the pipeline writes that buffer back as the t-th block of 64 rows of the product. Nothing
  else is touched: the four argument arrays are read only, so they end as they were launched.

  What is proved: the body's triple on whole staging buffers; the pipeline's proof data (arrays as the region finds
  them, each input buffer at its block, the output buffer at the body's value of the blocks); the body obligation at
  every grid point; the run of the whole program to the library's frame post; and from it the frame claim.
-/
import proofs.«411032_j80453327389320_3_alg».proof.Proof.Gen.Kernel.Launch
import proofs.«411032_j80453327389320_3_alg».proof.Proof.Gen.Kernel.Skeleton
import proofs.«411032_j80453327389320_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core c's buffers hold when the region is entered: the launch memory after the host operations before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the product array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the four arrays of the pipeline: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- An argument array, no array of the pipeline and not written by the reshape after the region, ends as the region
    found it, which is as launched. -/
theorem W_of (dats : (p : Fin _) → (c : Dev nD) → Dat τ (Elt F) Unit ℕ (UR sig nD τ) ℕ (cfgs p) c) (c : Dev nD)
    (a : Ref sig .tc) (hw : Proc.devRef (τ := τ) .tc a ∉ (StableHlo.reshape (Val := Elt F) main_v73 main_v74 rfl shapeCasts_S16384x4096_S8x2048x4096).writes)
    (hne : ∀ w, Pipeline.arrRef spec0 w ≠ a) (hV : V m c a = m ((c : Thread nD τ).loc a)) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall]
      exact hw)),
    Pipeline.withArrays_of_ne _ c (V0 m c) _ a hne]
  exact hV

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of m dats c main_arg0 (by simp only [StableHlo.reshape_writes, Finset.mem_singleton]; exact StableHlo.devRef_ne_of_ne (by decide))
    (by decide) (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of m dats c main_arg1 (by simp only [StableHlo.reshape_writes, Finset.mem_singleton]; exact StableHlo.devRef_ne_of_ne (by decide))
    (by decide) (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of m dats c main_arg2 (by simp only [StableHlo.reshape_writes, Finset.mem_singleton]; exact StableHlo.devRef_ne_of_ne (by decide))
    (by decide) (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of m dats c main_arg3 (by simp only [StableHlo.reshape_writes, Finset.mem_singleton]; exact StableHlo.devRef_ne_of_ne (by decide))
    (by decide) (V_main_arg3 m c)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or left it from the point before (the block index has not moved then). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's frame post, the frame claim: each argument array is no array of the pipeline, so the
    post's clause for the other buffers gives it at what the reshape after the region leaves, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses and what it leaves in the output's buffer -/

/-- The whole block of 64 rows, the whole weight matrix, the whole bias row: the body reads and writes whole buffers. -/
abbrev rX : Rect S64x4096 := Rect.unit (s := S64x4096) ![0, 0] S64x4096.size inb_S64x4096_S64x4096_0_0
abbrev rW : Rect S4096x4096 := Rect.unit (s := S4096x4096) ![0, 0] S4096x4096.size inb_S4096x4096_S4096x4096_0_0
abbrev rB : Rect S1x4096 := Rect.unit (s := S1x4096) ![0, 0] S1x4096.size inb_S1x4096_S1x4096_0_0

/-- The output's staging buffer after the body, from the three input buffers: the one store of the body's value of
    what it loaded, "rows times weights-transposed plus the bias row". -/
def out0_3 (x0 : Vec F S64x4096 .f32) (x1 : Vec F S4096x4096 .bf16) (x2 : Vec F S1x4096 .f32) : Vec F S64x4096 .f32 :=
  View.canon [⟨rX, k0_pay1 (View.ld x0 rX) (View.ld x1 rW) (View.ld x2 rB)⟩]

/-- The one store is of the whole buffer, so it covers it. -/
theorem cover0_3 (p0 : Vec F S64x4096 .f32) (y : S64x4096.Idx) :
    ∃ pc ∈ ([⟨rX, p0⟩] : List (View.Piece (Elt F) S64x4096 .f32)), y ∈ pc.1.set :=
  View.cover_of_tiled [⟨rX, p0⟩] S64x4096.size (by rfl) y

/-! ## The body's triple -/

set_option maxHeartbeats 1000000 in
/-- The body, on whole staging buffers of which the three inputs' hold x0, x1, x2 and the output's holds anything,
    runs to the end leaving the inputs' as they were and the output's at out0_3 of them. (It also loads the output's
    buffer before storing into it; the loaded value is not used.) -/
theorem sound_kernel (c : Dev nD) (E : Set ℕ) (i : grid0.Coords)
    (arg1 : Memref sig .tc .vmem S64x4096 .f32) (harg1 : arg1.IsWhole) (arg2 : Memref sig .tc .vmem S4096x4096 .bf16) (harg2 : arg2.IsWhole)
    (arg3 : Memref sig .tc .vmem S1x4096 .f32) (harg3 : arg3.IsWhole) (arg4 : Memref sig .tc .vmem S64x4096 .f32) (harg4 : arg4.IsWhole)
    (x0 : Vec F S64x4096 .f32) (x1 : Vec F S4096x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core c: the arrays as the region finds them; after the body at point t each input's buffer at its block and
    the output's at out0_3 of the three blocks; the invariant is the rest of the core's scoped memory, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each array of the pipeline is at what the proof data's write-backs leave and every other unscoped buffer
    at what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KernelIdealFrame.lean ====
/-
  The frame of the idealized kernel program, and its run with every output named.

  The program is: ninety-five host operations that unpack the 3-bit weights (among them one concatenation of eight
  planes), one pipelined matrix product over 256 row blocks, and one host reshape of the product. On each core the
  region finds the three input arrays (the rows of the activations, the unpacked weights, the bias as one row) at what
  the host operations before it computed; at grid point t the body reads the t-th block of 64 rows, the whole weight
  matrix and the bias row, and stores into the output's staging buffer the value "rows times weights-transposed plus
  bias" of what it read; the pipeline writes that buffer back as the t-th block of 64 rows of the product. Nothing
  else is touched: the four argument arrays are read only, so they end as they were launched.

  What is proved: the body's triple on whole staging buffers; the pipeline's proof data (arrays as the region finds
  them, each input buffer at its block, the output buffer at the body's value of the blocks); the body obligation at
  every grid point; the run of the whole program to the library's frame post; and from it the frame claim.
-/
import proofs.«411032_j80453327389320_3_alg».proof.Proof.Gen.KernelIdeal.Launch
import proofs.«411032_j80453327389320_3_alg».proof.Proof.Gen.KernelIdeal.Skeleton
import proofs.«411032_j80453327389320_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core c's buffers hold when the region is entered: the launch memory after the host operations before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the product array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the four arrays of the pipeline: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- An argument array, no array of the pipeline and not written by the reshape after the region, ends as the region
    found it, which is as launched. -/
theorem W_of (dats : (p : Fin _) → (c : Dev nD) → Dat τ (Elt F) Unit ℕ (UR sig nD τ) ℕ (cfgs p) c) (c : Dev nD)
    (a : Ref sig .tc) (hw : Proc.devRef (τ := τ) .tc a ∉ (StableHlo.reshape (Val := Elt F) main_v73 main_v74 rfl shapeCasts_S16384x4096_S8x2048x4096).writes)
    (hne : ∀ w, Pipeline.arrRef spec0 w ≠ a) (hV : V m c a = m ((c : Thread nD τ).loc a)) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall]
      exact hw)),
    Pipeline.withArrays_of_ne _ c (V0 m c) _ a hne]
  exact hV

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of m dats c main_arg0 (by simp only [StableHlo.reshape_writes, Finset.mem_singleton]; exact StableHlo.devRef_ne_of_ne (by decide))
    (by decide) (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of m dats c main_arg1 (by simp only [StableHlo.reshape_writes, Finset.mem_singleton]; exact StableHlo.devRef_ne_of_ne (by decide))
    (by decide) (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of m dats c main_arg2 (by simp only [StableHlo.reshape_writes, Finset.mem_singleton]; exact StableHlo.devRef_ne_of_ne (by decide))
    (by decide) (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of m dats c main_arg3 (by simp only [StableHlo.reshape_writes, Finset.mem_singleton]; exact StableHlo.devRef_ne_of_ne (by decide))
    (by decide) (V_main_arg3 m c)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or left it from the point before (the block index has not moved then). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's frame post, the frame claim: each argument array is no array of the pipeline, so the
    post's clause for the other buffers gives it at what the reshape after the region leaves, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses and what it leaves in the output's buffer -/

/-- The whole block of 64 rows, the whole weight matrix, the whole bias row: the body reads and writes whole buffers. -/
abbrev rX : Rect S64x4096 := Rect.unit (s := S64x4096) ![0, 0] S64x4096.size inb_S64x4096_S64x4096_0_0
abbrev rW : Rect S4096x4096 := Rect.unit (s := S4096x4096) ![0, 0] S4096x4096.size inb_S4096x4096_S4096x4096_0_0
abbrev rB : Rect S1x4096 := Rect.unit (s := S1x4096) ![0, 0] S1x4096.size inb_S1x4096_S1x4096_0_0

/-- The output's staging buffer after the body, from the three input buffers: the one store of the body's value of
    what it loaded, "rows times weights-transposed plus the bias row". -/
def out0_3 (x0 : Vec F S64x4096 .f32) (x1 : Vec F S4096x4096 .bf16) (x2 : Vec F S1x4096 .f32) : Vec F S64x4096 .f32 :=
  View.canon [⟨rX, k0_pay1 (View.ld x0 rX) (View.ld x1 rW) (View.ld x2 rB)⟩]

/-- The one store is of the whole buffer, so it covers it. -/
theorem cover0_3 (p0 : Vec F S64x4096 .f32) (y : S64x4096.Idx) :
    ∃ pc ∈ ([⟨rX, p0⟩] : List (View.Piece (Elt F) S64x4096 .f32)), y ∈ pc.1.set :=
  View.cover_of_tiled [⟨rX, p0⟩] S64x4096.size (by rfl) y

/-! ## The body's triple -/

set_option maxHeartbeats 1000000 in
/-- The body, on whole staging buffers of which the three inputs' hold x0, x1, x2 and the output's holds anything,
    runs to the end leaving the inputs' as they were and the output's at out0_3 of them. (It also loads the output's
    buffer before storing into it; the loaded value is not used.) -/
theorem sound_kernel (c : Dev nD) (E : Set ℕ) (i : grid0.Coords)
    (arg1 : Memref sig .tc .vmem S64x4096 .f32) (harg1 : arg1.IsWhole) (arg2 : Memref sig .tc .vmem S4096x4096 .bf16) (harg2 : arg2.IsWhole)
    (arg3 : Memref sig .tc .vmem S1x4096 .f32) (harg3 : arg3.IsWhole) (arg4 : Memref sig .tc .vmem S64x4096 .f32) (harg4 : arg4.IsWhole)
    (x0 : Vec F S64x4096 .f32) (x1 : Vec F S4096x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core c: the arrays as the region finds them; after the body at point t each input's buffer at its block and
    the output's at out0_3 of the three blocks; the invariant is the rest of the core's scoped memory, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final
    state each array of the pipeline is at what the proof data's write-backs leave and every other unscoped buffer
    at what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.KernelIdealPayload.lean ====
/-
  The body's value, entry by entry, over the extended reals.

  What the body stores is "rows times weights-transposed plus bias": with the 64 rows it loaded as x (64 by 4096), the
  weight matrix as w (4096 by 4096, one row per output column) and the bias as one row b, the entry at row p and
  column o is the sum over k of x[p, k] * w[o, k], plus b[0, o]. Changing the float format of x is the identity on the
  extended reals, the product into a zero accumulator is the plain sum, and the bias row is repeated down the rows.
-/
import proofs.«411032_j80453327389320_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal.Gen
open Idealize.ShloMosaic Idealize.ShloMosaic.ValueIdx
open scoped BigOperators

/-! ## Which entries of the two operands meet at an output entry -/

/-- The left operand is read at the output's row … -/
theorem lhs_mm_0 (i : S64x4096.Idx) (q : dot_S64x4096_S4096x4096_S64x4096_1_1_0_0_n_n.contr.Idx) :
    (dot_S64x4096_S4096x4096_S64x4096_1_1_0_0_n_n.lhsIdx i q 0).val = (i 0).val := by
  unfold DotDims.lhsIdx
  rw [dif_neg (show ¬(0 : Fin S64x4096.rank) ∈ dot_S64x4096_S4096x4096_S64x4096_1_1_0_0_n_n.lhsBatch by decide), dif_pos (show (0 : Fin S64x4096.rank) ∈ dot_S64x4096_S4096x4096_S64x4096_1_1_0_0_n_n.lhsNonContracting by decide)]
  rfl
/-- … and the summation index; -/
theorem lhs_mm_1 (i : S64x4096.Idx) (q : dot_S64x4096_S4096x4096_S64x4096_1_1_0_0_n_n.contr.Idx) :
    (dot_S64x4096_S4096x4096_S64x4096_1_1_0_0_n_n.lhsIdx i q 1).val = (q ⟨0, by decide⟩).val :=
  dot_S64x4096_S4096x4096_S64x4096_1_1_0_0_n_n.lhsIdx_val_of_single rfl i q
/-- the right operand at the output's column … -/
theorem rhs_mm_0 (i : S64x4096.Idx) (q : dot_S64x4096_S4096x4096_S64x4096_1_1_0_0_n_n.contr.Idx) :
    (dot_S64x4096_S4096x4096_S64x4096_1_1_0_0_n_n.rhsIdx i q 0).val = (i 1).val := by
  unfold DotDims.rhsIdx
  rw [dif_neg (show ¬(0 : Fin S4096x4096.rank) ∈ dot_S64x4096_S4096x4096_S64x4096_1_1_0_0_n_n.rhsBatch by decide), dif_pos (show (0 : Fin S4096x4096.rank) ∈ dot_S64x4096_S4096x4096_S64x4096_1_1_0_0_n_n.rhsNonContracting by decide)]
  rfl
/-- … and the summation index. -/
theorem rhs_mm_1 (i : S64x4096.Idx) (q : dot_S64x4096_S4096x4096_S64x4096_1_1_0_0_n_n.contr.Idx) :
    (dot_S64x4096_S4096x4096_S64x4096_1_1_0_0_n_n.rhsIdx i q 1).val = (q ⟨0, by decide⟩).val :=
  dot_S64x4096_S4096x4096_S64x4096_1_1_0_0_n_n.rhsIdx_val_of_single rfl i q

/-- The product into a zero accumulator at row p and column o: the sum over k of l[p, k] * r[o, k]. -/
theorem mm_at (l : FVec Ideal S64x4096 .bf16) (r : FVec Ideal S4096x4096 .bf16) (p : Fin 64) (o : Fin 4096) :
    matmul (φ₁ := .bf16) (φ₂ := .bf16) dot_S64x4096_S4096x4096_S64x4096_1_1_0_0_n_n none l r (constant S64x4096 .f32 0x00000000#32) (ix2 p o)
      = ∑ k : Fin 4096, (l (ix2 p k) : EReal) * (r (ix2 o k) : EReal) := by
  show FloatOps.matmul (φ₁ := .bf16) (φ₂ := .bf16) dot_S64x4096_S4096x4096_S64x4096_1_1_0_0_n_n none l r (constant S64x4096 .f32 0x00000000#32) (ix2 p o) = _
  rw [Ideal.matmul_constant_zero_apply, ← Equiv.sum_comp (ValueIdx.contrEquiv1 dot_S64x4096_S4096x4096_S64x4096_1_1_0_0_n_n 4096 rfl rfl).symm]
  refine Finset.sum_congr rfl fun k _ => ?_
  have hk := ValueIdx.contrEquiv1_symm_val dot_S64x4096_S4096x4096_S64x4096_1_1_0_0_n_n 4096 rfl rfl k
  have el : dot_S64x4096_S4096x4096_S64x4096_1_1_0_0_n_n.lhsIdx (ix2 p o) ((ValueIdx.contrEquiv1 dot_S64x4096_S4096x4096_S64x4096_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S64x4096_S4096x4096_S64x4096_1_1_0_0_n_n.rhsIdx (ix2 p o) ((ValueIdx.contrEquiv1 dot_S64x4096_S4096x4096_S64x4096_1_1_0_0_n_n 4096 rfl rfl).symm k) = ix2 o k := funext fun a => Fin.ext (by
    match a with
    | ⟨0, _⟩ => exact rhs_mm_0 _ _
    | ⟨1, _⟩ => exact (rhs_mm_1 _ _).trans hk)
  rw [el, er]

/-- The bias row repeated down the 64 rows, at row p and column o, is the row's entry at column o. -/
theorem bias_at (b : FVec Ideal S1x4096 .f32) (p : Fin 64) (o : Fin 4096) :
    broadcastTo S64x4096 b broadcasts_S1x4096_S64x4096 (ix2 p o) = b (ix2 (0 : Fin 1) o) :=
  broadcastTo_apply b broadcasts_S1x4096_S64x4096 (ix2 p o) (ix2 (0 : Fin 1) o) (fun a => match a with
    | ⟨0, _⟩ => by show 0 = if (1 : Nat) = 1 then 0 else _; rw [if_pos rfl]
    | ⟨1, _⟩ => by show o.val = if (4096 : Nat) = 1 then 0 else o.val; rw [if_neg (by decide)])

/-- The body's value is the product of the loaded rows (their format changed, which is the identity here) with the
    loaded weights into zero, plus the repeated bias row. -/
theorem pay_eq (v0 : Vec Ideal S64x4096 .f32) (v3 : Vec Ideal S4096x4096 .bf16) (v6 : Vec Ideal S1x4096 .f32) :
    k0_pay1 (F := Ideal) v0 v3 v6
      = addf (matmul (φ₁ := .bf16) (φ₂ := .bf16) dot_S64x4096_S4096x4096_S64x4096_1_1_0_0_n_n none (truncf .bf16 v0 bitsLt_bf16_f32) v3 (constant S64x4096 .f32 0x00000000#32))
          (broadcastTo S64x4096 v6 broadcasts_S1x4096_S64x4096) := by
  unfold k0_pay1
  simp only [shapeCast_self]

/-- THE BODY'S VALUE at row p and column o: the sum over k of x[p, k] * w[o, k], plus b[0, o]. -/
theorem pay_at (v0 : Vec Ideal S64x4096 .f32) (v3 : Vec Ideal S4096x4096 .bf16) (v6 : Vec Ideal S1x4096 .f32) (p : Fin 64) (o : Fin 4096) :
    k0_pay1 (F := Ideal) v0 v3 v6 (ix2 p o)
      = (∑ k : Fin 4096, (v0 (ix2 p k) : EReal) * (v3 (ix2 o k) : EReal)) + (v6 (ix2 (0 : Fin 1) o) : EReal) := by
  rw [pay_eq, addf_apply, mm_at, bias_at]
  rfl

end Cert.KernelIdeal.Hand

end
-- ==== Proof.KernelIdealValue.lean ====
/-
  The idealized kernel program's result, as one function of what the region finds.

  The region's output array is 16384 rows by 4096 columns. Point t of the grid writes back rows 64 t to 64 t + 63, and
  what it writes is, at row p of the block and column o, the sum over k of x[64 t + p, k] * w[o, k] plus b[0, o], with
  x, w, b the three input arrays as the region finds them (the rows' block moves with t; the weights and the bias are
  read whole at every point). The 256 blocks tile the array, so after the run the array is "rows times
  weights-transposed plus bias" everywhere. The one host operation after the region regroups the rows as 8 by 2048.
-/
import proofs.«411032_j80453327389320_3_alg».proof.Proof.KernelIdealFrame
import proofs.«411032_j80453327389320_3_alg».proof.Proof.KernelIdealPayload
import Idealize.ShloMosaic.Lib.Pipeline.Value
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

/-! ## The product, entry by entry -/

/-- Row r of x against row o of w, plus the bias at column o. -/
def prodAt (X : S16384x4096.Idx → EReal) (W : S4096x4096.Idx → EReal) (B : S1x4096.Idx → EReal) (r : Fin 16384) (o : Fin 4096) : EReal :=
  (∑ k : Fin 4096, X (ix2 r k) * W (ix2 o k)) + B (ix2 (0 : Fin 1) o)

/-- The whole product array. -/
def prod (X : S16384x4096.Idx → EReal) (W : S4096x4096.Idx → EReal) (B : S1x4096.Idx → EReal) : S16384x4096.Idx → EReal :=
  fun i => prodAt X W B ⟨(i 0).val, (i 0).isLt⟩ ⟨(i 1).val, (i 1).isLt⟩

theorem hz : (![0, 0] : Fin 2 → Nat) = fun _ => 0 := funext fun a => by fin_cases a <;> rfl

/-- What the body leaves in the output's buffer, at row p and column o of the block. -/
theorem out_at (x0 : Vec Ideal S64x4096 .f32) (x1 : Vec Ideal S4096x4096 .bf16) (x2 : Vec Ideal S1x4096 .f32) (p : Fin 64) (o : Fin 4096) :
    out0_3 x0 x1 x2 (ix2 p o)
      = (∑ k : Fin 4096, (x0 (ix2 p k) : EReal) * (x1 (ix2 o k) : EReal)) + (x2 (ix2 (0 : Fin 1) o) : EReal) := by
  unfold out0_3
  rw [View.canon_unit_zero hz]
  simp only [View.ld_unit_zero (S := S64x4096) hz, View.ld_unit_zero (S := S4096x4096) hz, View.ld_unit_zero (S := S1x4096) hz]
  exact pay_at x0 x1 x2 p o

/-- The printed index maps over the grid: the rows' block and the output's block are the t-th, everything else is
    block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the output, for ANY three arrays: the body's value of the three blocks read at point t is block t of
    the product of the arrays. (The rows' block and the output's block are the t-th; the weights and the bias are
    read whole.) -/
theorem flushed_gen (X : S16384x4096.Idx → EReal) (W : S4096x4096.Idx → EReal) (B : S1x4096.Idx → EReal) (t : Fin cfg0.N) :
    (cfg0.win 3).cut (grid0.coords t)
        (out0_3 (((cfg0.win 0).blk t).view.read (Elt Ideal) X) (((cfg0.win 1).blk t).view.read (Elt Ideal) W)
          (((cfg0.win 2).blk t).view.read (Elt Ideal) B))
      = ((cfg0.win 3).blk t).view.read (Elt Ideal) (prod X W B) := by
  obtain ⟨e00, e01, e10, e11, e20, e21, e30, e31⟩ := idx_facts t
  funext j
  obtain ⟨p, o, rfl⟩ : ∃ (p : Fin 64) (o : Fin 4096), j = ix2 p o := ⟨j 0, j 1, eq_ix2 j⟩
  refine (out_at _ _ _ p o).trans ?_
  show _ = prodAt X W B _ _
  unfold prodAt
  have hx : ∀ k : Fin 4096, (((cfg0.win 0).blk t).view.read (Elt Ideal) X (ix2 p k) : EReal)
      = X (ix2 ⟨((((cfg0.win 3).blk t).view.emb (ix2 p o)) 0).val, ((((cfg0.win 3).blk t).view.emb (ix2 p o)) 0).isLt⟩ k) := fun k => by
    show X (((cfg0.win 0).blk t).view.emb (ix2 p k)) = _
    congr 1
    funext a; apply Fin.ext
    match a with
    | ⟨0, _⟩ => show win0_0.index t (0 : Fin 2) * 64 + 1 * p.val = win0_3.index t (0 : Fin 2) * 64 + 1 * p.val; omega
    | ⟨1, _⟩ => show win0_0.index t (1 : Fin 2) * 4096 + 1 * k.val = k.val; omega
  have hw : ∀ k : Fin 4096, (((cfg0.win 1).blk t).view.read (Elt Ideal) W (ix2 o k) : EReal)
      = W (ix2 ⟨((((cfg0.win 3).blk t).view.emb (ix2 p o)) 1).val, ((((cfg0.win 3).blk t).view.emb (ix2 p o)) 1).isLt⟩ k) := fun k => by
    show W (((cfg0.win 1).blk t).view.emb (ix2 o k)) = _
    congr 1
    funext a; apply Fin.ext
    match a with
    | ⟨0, _⟩ => show win0_1.index t (0 : Fin 2) * 4096 + 1 * o.val = win0_3.index t (1 : Fin 2) * 4096 + 1 * o.val; omega
    | ⟨1, _⟩ => show win0_1.index t (1 : Fin 2) * 4096 + 1 * k.val = k.val; omega
  have hb : (((cfg0.win 2).blk t).view.read (Elt Ideal) B (ix2 (0 : Fin 1) o) : EReal)
      = B (ix2 (0 : Fin 1) ⟨((((cfg0.win 3).blk t).view.emb (ix2 p o)) 1).val, ((((cfg0.win 3).blk t).view.emb (ix2 p o)) 1).isLt⟩) := by
    show B (((cfg0.win 2).blk t).view.emb (ix2 (0 : Fin 1) o)) = _
    congr 1
    funext a; apply Fin.ext
    match a with
    | ⟨0, _⟩ => show win0_2.index t (0 : Fin 2) * 1 + 1 * 0 = 0; omega
    | ⟨1, _⟩ => show win0_2.index t (1 : Fin 2) * 4096 + 1 * o.val = win0_3.index t (1 : Fin 2) * 4096 + 1 * o.val; omega
  rw [hb]
  exact congrArg (· + _) (Finset.sum_congr rfl fun k _ => by rw [hx k, hw k])

/-- WHAT POINT t WRITES BACK is block t of the product of the arrays the region finds. -/
theorem flushed_eq (c : Dev nD) (t : Fin cfg0.N) :
    (dats m 0 c).flushed 3 t
      = ((cfg0.win 3).blk t).view.read (Elt Ideal)
          (prod (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold iblk
  exact flushed_gen _ _ _ t

/-- An entry of the array is in point t's block iff each coordinate is in the block's range. -/
theorem mem_blk (t : Fin cfg0.N) (i : S16384x4096.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v73).slice (win0_3.rect t)).set ↔ _
  rw [View.set_slice_whole, Rect.mem_set_unit]
  exact Iff.rfl

/-- Every entry of the array is in the block of the point its row falls in. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  let t : Fin cfg0.N := ⟨(i 0).val / 64, by rw [hN]; omega⟩
  obtain ⟨e00, e01, e10, e11, e20, e21, e30, e31⟩ := idx_facts t
  have ht : t.val = (i 0).val / 64 := rfl
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 4096 ≤ (i 1).val ∧ (i 1).val < win0_3.index t (1 : Fin 2) * 4096 + 4096; omega

/-- THE PRODUCT ARRAY after the run. -/
theorem final_arr (c : Dev nD) :
    (dats m 0 c).arrAt 3 cfg0.N
      = prod (V m c (Pipeline.arrRef spec0 0)) (V m c (Pipeline.arrRef spec0 1)) (V m c (Pipeline.arrRef spec0 2)) :=
  (dats m 0 c).arrAt_eq_of_cover 3 _ (fun t _ => flushed_eq m c t) cover

/-- The same with the three arrays by their names in the program. -/
theorem final (c : Dev nD) :
    (dats m 0 c).arrAt 3 cfg0.N = prod (V m c main_v71) (V m c main_v70) (V m c main_v72) :=
  final_arr m c

/-- The result buffer after the reshape that follows the region: the product array regrouped as 8 by 2048 rows. -/
theorem tail_result (c : Dev nD) :
    Pipeline.afterTail₀ cfgs (dats m) 0 (V0 m) [hostOps1] c main_v74
      = shapeCast S8x2048x4096 (prod (V m c main_v71) (V m c main_v70) (V m c main_v72)) shapeCasts_S16384x4096_S8x2048x4096 := by
  unfold Pipeline.afterTail₀
  show StableHlo.after hostOps1 _ (Proc.devRef .tc main_v74) = _
  after_results
  exact congrArg (fun y => shapeCast S8x2048x4096 y shapeCasts_S16384x4096_S8x2048x4096)
    ((Pipeline.withArrays_arr spec0 launch0.win.arr_inj c _ _ 3).trans (final m c))

/-- THE RUN, READ: the result buffer at the regrouped product of what the region finds, the arguments unchanged. -/
theorem run_value : θ_run defs (onTc (τ := τ) (main (F := Ideal))) ⟨m, fun _ => 0, ρ⟩ (fun r => ∀ c : Dev nD,
      r.2.mem ((c.tc : Thread nD τ).loc main_v74)
        = shapeCast S8x2048x4096 (prod (V m c main_v71) (V m c main_v70) (V m c main_v72)) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v74 (Pipeline.mem_restRefs_of main_v74 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.LibLowByte.lean ====
/-
  Two facts about 32-bit words and masks supported in the low byte.
  A bitwise "and" with a mask whose set bits all lie in positions 0..7 depends only on the
  low byte of the word; and the same holds after an arithmetic right shift by k, when the
  mask's set bits all lie below position 8 - k (the bits read are then bits k..7 of the word,
  all inside the low byte, so neither the high bytes nor the sign bit are seen).
-/
import Idealize.ShloMosaic.PureOps.Vector
namespace Idealize.ShloMosaic.LowByte

/-- every bit of 255 below position 8 is set -/
private theorem low_byte_bits : ∀ j < 8, (255#32).getLsbD j = true := by decide

/-- a mask whose set bits lie in the low byte sees only the low byte of a word -/
theorem andi_low (b c : BitVec 32) (hc : ∀ i < 32, c.getLsbD i = true → i < 8) :
    IntOp.andi (IntOp.andi b 255#32) c = IntOp.andi b c := by
  unfold IntOp.andi
  apply BitVec.eq_of_getLsbD_eq
  intro i hi
  simp only [BitVec.getLsbD_and]
  cases hci : c.getLsbD i with
  | false => simp only [Bool.and_false]
  | true =>
    -- the mask bit is set, so i < 8 and bit i of 255 is set
    have h8 : i < 8 := hc i hi hci
    rw [low_byte_bits i h8, Bool.and_true]

/-- a field of the low byte taken by an arithmetic right shift by k and a mask c whose set bits lie below 8 - k is the same with the word first masked to its low byte -/
theorem shrsi_low (b c k : BitVec 32) (hk : k.toNat < 32)
    (hc : ∀ i < 32, c.getLsbD i = true → k.toNat + i < 8) :
    IntOp.andi (IntOp.shrsi .host (IntOp.andi b 255#32) k) c
      = IntOp.andi (IntOp.shrsi .host b k) c := by
  simp only [IntOp.shrsi, IntOp.andi, hk, if_true]
  apply BitVec.eq_of_getLsbD_eq
  intro i hi
  simp only [BitVec.getLsbD_and, BitVec.getLsbD_sshiftRight']
  cases hci : c.getLsbD i with
  | false => simp only [Bool.and_false]
  | true =>
    -- the mask bit is set, so k + i < 8 < 32: the shifted read is bit k + i of the word,
    -- where 255 has a set bit
    have h8 : k.toNat + i < 8 := hc i hi hci
    have h32 : k.toNat + i < 32 := Nat.lt_trans h8 (by decide)
    simp only [h32, if_true, BitVec.getLsbD_and, low_byte_bits _ h8, Bool.and_true]

end Idealize.ShloMosaic.LowByte
-- ==== Proof.Unpack.lean ====
/-
  Unpacking 3-bit weights, with and without first masking each byte.

  Each group of 32 weights is stored as 12 bytes, read as 4 triples (b0, b1, b2) of bytes held in 32-bit words. A triple
  holds eight 3-bit fields: bits 0-2, 3-5 of b0; bits 6-7 of b0 with bit 0 of b1 above them; bits 1-3, 4-6 of b1; bit 7
  of b1 with bits 0-1 of b2 above it; bits 2-4, 5-7 of b2. The weight is the field divided by 7, doubled, times the
  group's norm, minus the norm; the weights are then laid out as a 4096 by 4096 matrix.

  Every field reads only bits 0-7 of its words, by an arithmetic right shift by k < 8 and a mask below 8 - k. So a
  program that first masks each word to its low byte ("and 255") extracts the same fields as one that does not, for
  every 32-bit word, negative ones included: the weight matrices are equal.
-/
import Idealize.ShloMosaic.PureOps.Vector
import Idealize.ShloMosaic.PureOps.ShapeOps
import proofs.«411032_j80453327389320_3_alg».proof.Proof.LibLowByte

noncomputable section

namespace Cert.Unpack

open Idealize.ShloMosaic

variable {F : FTy → Type} [FloatOps F]

/-! ## Shapes -/

abbrev S0 : Shape := ⟨0, ![]⟩
abbrev Sq : Shape := ⟨2, ![524288, 12]⟩
abbrev Sg4x3 : Shape := ⟨3, ![524288, 4, 3]⟩
abbrev Sg4x1 : Shape := ⟨3, ![524288, 4, 1]⟩
abbrev Sg4 : Shape := ⟨2, ![524288, 4]⟩
abbrev Sg4x8 : Shape := ⟨3, ![524288, 4, 8]⟩
abbrev Sg32 : Shape := ⟨2, ![524288, 32]⟩
abbrev Sg1 : Shape := ⟨2, ![524288, 1]⟩
abbrev Sflat : Shape := ⟨1, ![16777216]⟩
abbrev Sw : Shape := ⟨2, ![4096, 4096]⟩

theorem h_q3 : Sq.ShapeCasts Sg4x3 := by decide
theorem h_c3 : S0.BroadcastsInDim Sg4x3 (![] : Fin 0 → Fin Sg4x3.rank) := by decide
theorem h_s0 : Sg4x3.Slices ![0, 0, 0] Sg4x1 := by decide
theorem h_s1 : Sg4x3.Slices ![0, 0, 1] Sg4x1 := by decide
theorem h_s2 : Sg4x3.Slices ![0, 0, 2] Sg4x1 := by decide
theorem h_41 : Sg4x1.ShapeCasts Sg4 := by decide
theorem h_c4 : S0.BroadcastsInDim Sg4 (![] : Fin 0 → Fin Sg4.rank) := by decide
theorem h_col : Sg4.BroadcastsInDim Sg4x1 (![0, 1] : Fin 2 → Fin Sg4x1.rank) := by decide
theorem h_cat : Shape.Concatenates [Sg4x1, Sg4x1, Sg4x1, Sg4x1, Sg4x1, Sg4x1, Sg4x1, Sg4x1] Sg4x8 2 := by decide
theorem h_32 : Sg4x8.ShapeCasts Sg32 := by decide
theorem h_c32 : S0.BroadcastsInDim Sg32 (![] : Fin 0 → Fin Sg32.rank) := by decide
theorem h_n32 : Sg1.BroadcastsInDim Sg32 (![0, 1] : Fin 2 → Fin Sg32.rank) := by decide
theorem h_fl : Sg32.ShapeCasts Sflat := by decide
theorem h_w : Sflat.ShapeCasts Sw := by decide

/-! ## The bytes of a triple, plain and masked -/

/-- The packed words as groups of 4 triples. -/
abbrev triples (q : IVec Sq 32) : IVec Sg4x3 32 := shapeCast Sg4x3 q h_q3
/-- The same with every word masked to its low byte. -/
abbrev maskedTriples (q : IVec Sq 32) : IVec Sg4x3 32 :=
  andi (triples q) (broadcastInDim Sg4x3 ![] h_c3 (constantI S0 32 255#32))

/-- Byte 0, 1, 2 of every triple, of an array of triples. -/
abbrev byte0 (b : IVec Sg4x3 32) : IVec Sg4 32 := shapeCast Sg4 (extractStridedSlice Sg4x1 ![0, 0, 0] b h_s0) h_41
abbrev byte1 (b : IVec Sg4x3 32) : IVec Sg4 32 := shapeCast Sg4 (extractStridedSlice Sg4x1 ![0, 0, 1] b h_s1) h_41
abbrev byte2 (b : IVec Sg4x3 32) : IVec Sg4 32 := shapeCast Sg4 (extractStridedSlice Sg4x1 ![0, 0, 2] b h_s2) h_41

/-- The constant n at every triple. -/
abbrev cst (n : BitVec 32) : IVec Sg4 32 := broadcastInDim Sg4 ![] h_c4 (constantI S0 32 n)

/-- A word array masked to its low bytes. -/
abbrev low (b : IVec Sg4 32) : IVec Sg4 32 := andi b (cst 255#32)

/-- Taking a byte plane of the masked triples is masking the byte plane of the triples: slicing and regrouping only
    move entries, and the mask is the same constant everywhere. -/
theorem byte0_masked (q : IVec Sq 32) : byte0 (maskedTriples q) = low (byte0 (triples q)) := rfl
theorem byte1_masked (q : IVec Sq 32) : byte1 (maskedTriples q) = low (byte1 (triples q)) := rfl
theorem byte2_masked (q : IVec Sq 32) : byte2 (maskedTriples q) = low (byte2 (triples q)) := rfl

/-! ## The eight fields of a triple -/

abbrev fld0 (b0 : IVec Sg4 32) : IVec Sg4 32 := andi b0 (cst 7#32)
abbrev fld1 (b0 : IVec Sg4 32) : IVec Sg4 32 := andi (Host.shrsi b0 (cst 3#32)) (cst 7#32)
abbrev fld2 (b0 b1 : IVec Sg4 32) : IVec Sg4 32 :=
  ori (andi (Host.shrsi b0 (cst 6#32)) (cst 3#32)) (Host.shli (andi b1 (cst 1#32)) (cst 2#32))
abbrev fld3 (b1 : IVec Sg4 32) : IVec Sg4 32 := andi (Host.shrsi b1 (cst 1#32)) (cst 7#32)
abbrev fld4 (b1 : IVec Sg4 32) : IVec Sg4 32 := andi (Host.shrsi b1 (cst 4#32)) (cst 7#32)
abbrev fld5 (b1 b2 : IVec Sg4 32) : IVec Sg4 32 :=
  ori (andi (Host.shrsi b1 (cst 7#32)) (cst 1#32)) (Host.shli (andi b2 (cst 3#32)) (cst 1#32))
abbrev fld6 (b2 : IVec Sg4 32) : IVec Sg4 32 := andi (Host.shrsi b2 (cst 2#32)) (cst 7#32)
abbrev fld7 (b2 : IVec Sg4 32) : IVec Sg4 32 := andi (Host.shrsi b2 (cst 5#32)) (cst 7#32)

/-- A mask below bit 8 sees only the low byte. -/
theorem and_low (b : IVec Sg4 32) (n : BitVec 32) (hn : ∀ i < 32, n.getLsbD i = true → i < 8) :
    andi (low b) (cst n) = andi b (cst n) :=
  funext fun i => LowByte.andi_low (b i) n hn

/-- A field taken by a right shift by k and a mask below bit 8 - k sees only the low byte. -/
theorem shr_and_low (b : IVec Sg4 32) (k n : BitVec 32) (hk : k.toNat < 32)
    (hn : ∀ i < 32, n.getLsbD i = true → k.toNat + i < 8) :
    andi (Host.shrsi (low b) (cst k)) (cst n) = andi (Host.shrsi b (cst k)) (cst n) :=
  funext fun i => LowByte.shrsi_low (b i) n k hk hn

theorem fld0_low (b0 : IVec Sg4 32) : fld0 (low b0) = fld0 b0 := and_low b0 7#32 (by decide)
theorem fld1_low (b0 : IVec Sg4 32) : fld1 (low b0) = fld1 b0 := shr_and_low b0 3#32 7#32 (by decide) (by decide)
theorem fld2_low (b0 b1 : IVec Sg4 32) : fld2 (low b0) (low b1) = fld2 b0 b1 := by
  show ori (andi (Host.shrsi (low b0) (cst 6#32)) (cst 3#32)) (Host.shli (andi (low b1) (cst 1#32)) (cst 2#32)) = _
  rw [shr_and_low b0 6#32 3#32 (by decide) (by decide), and_low b1 1#32 (by decide)]
theorem fld3_low (b1 : IVec Sg4 32) : fld3 (low b1) = fld3 b1 := shr_and_low b1 1#32 7#32 (by decide) (by decide)
theorem fld4_low (b1 : IVec Sg4 32) : fld4 (low b1) = fld4 b1 := shr_and_low b1 4#32 7#32 (by decide) (by decide)
theorem fld5_low (b1 b2 : IVec Sg4 32) : fld5 (low b1) (low b2) = fld5 b1 b2 := by
  show ori (andi (Host.shrsi (low b1) (cst 7#32)) (cst 1#32)) (Host.shli (andi (low b2) (cst 3#32)) (cst 1#32)) = _
  rw [shr_and_low b1 7#32 1#32 (by decide) (by decide), and_low b2 3#32 (by decide)]
theorem fld6_low (b2 : IVec Sg4 32) : fld6 (low b2) = fld6 b2 := shr_and_low b2 2#32 7#32 (by decide) (by decide)
theorem fld7_low (b2 : IVec Sg4 32) : fld7 (low b2) = fld7 b2 := shr_and_low b2 5#32 7#32 (by decide) (by decide)

/-! ## From the fields to the weight matrix -/

/-- A plane of fields as a column of width one, ready to be laid side by side. -/
abbrev col (f : IVec Sg4 32) : IVec Sg4x1 32 := broadcastInDim Sg4x1 ![0, 1] h_col f

/-- The weight matrix from the three byte planes and the norms: the eight fields side by side, 32 to a group, as
    floats; each divided by 7, doubled, times its group's norm, minus the norm; laid out 4096 by 4096. -/
def weights (b0 b1 b2 : IVec Sg4 32) (norm : FVec F Sg1 .f32) : FVec F Sw .f32 :=
  shapeCast Sw (shapeCast Sflat (subf (mulf (mulf (Host.divf (sitofp .f32 (shapeCast Sg32
      (concatenate Sg4x8 2 [⟨Sg4x1, col (fld0 b0)⟩, ⟨Sg4x1, col (fld1 b0)⟩, ⟨Sg4x1, col (fld2 b0 b1)⟩, ⟨Sg4x1, col (fld3 b1)⟩, ⟨Sg4x1, col (fld4 b1)⟩, ⟨Sg4x1, col (fld5 b1 b2)⟩, ⟨Sg4x1, col (fld6 b2)⟩, ⟨Sg4x1, col (fld7 b2)⟩] h_cat) h_32))
    (broadcastInDim Sg32 ![] h_c32 (constant S0 .f32 0x40E00000#32)))
    (broadcastInDim Sg32 ![] h_c32 (constant S0 .f32 0x40000000#32)))
    (broadcastInDim Sg32 ![0, 1] h_n32 norm))
    (broadcastInDim Sg32 ![0, 1] h_n32 norm)) h_fl) h_w

/-- MASKING EACH WORD TO ITS LOW BYTE FIRST CHANGES NO WEIGHT. -/
theorem weights_low (b0 b1 b2 : IVec Sg4 32) (norm : FVec F Sg1 .f32) :
    weights (F := F) (low b0) (low b1) (low b2) norm = weights b0 b1 b2 norm := by
  unfold weights
  rw [fld0_low, fld1_low, fld2_low, fld3_low, fld4_low, fld5_low, fld6_low, fld7_low]

/-- The weight matrix of the packed words, bytes taken as they are, -/
abbrev weightsPlain (q : IVec Sq 32) (norm : FVec F Sg1 .f32) : FVec F Sw .f32 :=
  weights (byte0 (triples q)) (byte1 (triples q)) (byte2 (triples q)) norm
/-- and with every word masked to its low byte first. -/
abbrev weightsMasked (q : IVec Sq 32) (norm : FVec F Sg1 .f32) : FVec F Sw .f32 :=
  weights (byte0 (maskedTriples q)) (byte1 (maskedTriples q)) (byte2 (maskedTriples q)) norm

theorem weightsMasked_eq (q : IVec Sq 32) (norm : FVec F Sg1 .f32) :
    weightsMasked (F := F) q norm = weightsPlain q norm := by
  show weights (byte0 (maskedTriples q)) (byte1 (maskedTriples q)) (byte2 (maskedTriples q)) norm = _
  rw [byte0_masked, byte1_masked, byte2_masked, weights_low]

end Cert.Unpack

end
-- ==== Proof.KernelIdealHost.lean ====
/-
  What the region finds in its three input arrays: the host operations before it, read back.

  The activations arrive regrouped as 16384 rows of 4096; the bias as one row of 4096; the weights as the unpacked
  3-bit fields (every packed word first masked to its low byte), scaled by the norms, laid out 4096 by 4096 and then
  changed to the narrower float format.
-/
import proofs.«411032_j80453327389320_3_alg».proof.Proof.KernelIdealFrame
import proofs.«411032_j80453327389320_3_alg».proof.Proof.Unpack
import Idealize.ShloMosaic.Lib.StableHlo.Run

set_option maxRecDepth 16384

noncomputable section

namespace Cert.KernelIdeal.Hand

open Cert.KernelIdeal.Gen
open Idealize.ShloMosaic Idealize.ShloMosaic.TcCoe Idealize.SL.Sem

variable {F : FTy → Type} [FloatOps F]
variable (m : (ℓ : Loc nD τ sig) → Buf (Elt F) ℓ)

set_option maxHeartbeats 4000000 in
/-- The activations as the region finds them: the argument regrouped into rows. -/
theorem V_rows (c : Dev nD) :
    (V m c main_v71 : FVec F S16384x4096 .f32)
      = shapeCast S16384x4096 (m ((c : Thread nD τ).loc main_arg0)) shapeCasts_S8x2048x4096_S16384x4096 := by
  show StableHlo.after hostOps0 (fun b => m (c, b)) (Proc.devRef .tc main_v71) = _
  after_results
  rfl

set_option maxHeartbeats 4000000 in
/-- The bias as the region finds it: the argument as one row. -/
theorem V_bias (c : Dev nD) :
    (V m c main_v72 : FVec F S1x4096 .f32)
      = shapeCast S1x4096 (m ((c : Thread nD τ).loc main_arg3)) shapeCasts_S4096_S1x4096 := by
  show StableHlo.after hostOps0 (fun b => m (c, b)) (Proc.devRef .tc main_v72) = _
  after_results
  rfl

set_option maxHeartbeats 4000000 in
/-- The weights as the region finds them: unpacked from the masked words and scaled, then narrowed. -/
theorem V_weights (c : Dev nD) :
    (V m c main_v70 : FVec F S4096x4096 .bf16)
      = truncf .bf16 (Cert.Unpack.weightsMasked (F := F) (m ((c : Thread nD τ).loc main_arg1)) (m ((c : Thread nD τ).loc main_arg2))) bitsLt_bf16_f32 := by
  show StableHlo.after hostOps0 (fun b => m (c, b)) (Proc.devRef .tc main_v70) = _
  after_results
  rfl

end Cert.KernelIdeal.Hand

end
-- ==== Proof.ReferenceValue.lean ====
/-
  The reference, read as one formula.

  The reference unpacks the 3-bit weights from the packed words as they are (no masking), scales them by the norms,
  lays them out 4096 by 4096, and computes x @ wᵀ + b: at batch b, position s and output column o, the sum over k of
  x[b, s, k] * w[o, k], plus bias[o]. On the extended reals the host's contraction is that plain sum.
-/
import proofs.«411032_j80453327389320_3_alg».proof.Proof.Gen.ReferenceIdeal.Run
import proofs.«411032_j80453327389320_3_alg».proof.Proof.Gen.ReferenceIdeal.Read
import proofs.«411032_j80453327389320_3_alg».proof.Proof.Unpack
import Idealize.ShloMosaic.Lib.ValueIdx

noncomputable section

namespace Cert.ReferenceIdeal.RefValue

open Cert.ReferenceIdeal Cert.ReferenceIdeal.Read
open Idealize.ShloMosaic Idealize.ShloMosaic.ValueIdx
open scoped BigOperators

/-- The reference's weight matrix is the unpacking of the words as they are. -/
theorem weights_eq {F : FTy → Type} [FloatOps F] (x1 : (⟨S524288x12, .i32⟩ : BufTy).Contents (Elt F)) (x2 : (⟨S524288x1, .f32⟩ : BufTy).Contents (Elt F)) :
    val_main_v67 (F := F) x1 x2 = Cert.Unpack.weightsPlain (F := F) x1 x2 := rfl

/-- x @ wᵀ + b, entry by entry. -/
def linear (x : S8x2048x4096.Idx → EReal) (w : S4096x4096.Idx → EReal) (b : S4096.Idx → EReal) : S8x2048x4096.Idx → EReal :=
  fun i => (∑ k : Fin 4096, x (ix3 (⟨(i 0).val, (i 0).isLt⟩ : Fin 8) (⟨(i 1).val, (i 1).isLt⟩ : Fin 2048) k) * w (ix2 (⟨(i 2).val, (i 2).isLt⟩ : Fin 4096) k))
    + b (ix1 (⟨(i 2).val, (i 2).isLt⟩ : Fin 4096))

/-- THE REFERENCE'S RESULT is x @ wᵀ + b with w the plainly unpacked weights. -/
theorem result_eq (x0 : (⟨S8x2048x4096, .f32⟩ : BufTy).Contents (Elt Ideal)) (x1 : (⟨S524288x12, .i32⟩ : BufTy).Contents (Elt Ideal))
    (x2 : (⟨S524288x1, .f32⟩ : BufTy).Contents (Elt Ideal)) (x3 : (⟨S4096, .f32⟩ : BufTy).Contents (Elt Ideal)) :
    val_main_v71 (F := Ideal) x0 x1 x2 x3 = linear x0 (Cert.Unpack.weightsPlain (F := Ideal) x1 x2) x3 := by
  funext i
  rw [val_main_v71_apply, val_main_v68_apply, val_main_v70_apply, val_main_v69_apply, weights_eq]
  have el : ∀ k : Fin 4096, lidx_main_v68 i k = ix3 (⟨(i 0).val, (i 0).isLt⟩ : Fin 8) (⟨(i 1).val, (i 1).isLt⟩ : Fin 2048) k := fun k =>
    funext fun a => by match a with | ⟨0, _⟩ => rfl | ⟨1, _⟩ => rfl | ⟨2, _⟩ => rfl
  have er : ∀ k : Fin 4096, ridx_main_v68 i k = ix2 (⟨(i 2).val, (i 2).isLt⟩ : Fin 4096) k := fun k =>
    funext fun a => by match a with | ⟨0, _⟩ => rfl | ⟨1, _⟩ => rfl
  have eb : idx_main_v69 (idx_main_v70 i) = ix1 (⟨(i 2).val, (i 2).isLt⟩ : Fin 4096) :=
    funext fun a => by match a with | ⟨0, _⟩ => rfl
  simp only [el, er, eb]
  rfl

end Cert.ReferenceIdeal.RefValue

end
-- ==== Proof.Bridge.lean ====
/-
  The two programs compute one function.

  The kernel program regroups the activations into 16384 rows, multiplies them block by block against the weight matrix
  (one row of it per output column) and adds the bias row, then regroups the 16384 rows as 8 by 2048. Regrouping moves
  entries and changes none: row 2048 b + s of the product is the reference's entry at batch b and position s, the sum
  over k of x[b, s, k] * w[o, k] plus bias[o]. The kernel's weights are unpacked from words masked to their low byte and
  narrowed in float format; masking changes no field and narrowing is the identity on the extended reals, so they are
  the reference's weights.
-/
import proofs.«411032_j80453327389320_3_alg».proof.Proof.KernelIdealValue
import proofs.«411032_j80453327389320_3_alg».proof.Proof.KernelIdealHost
import proofs.«411032_j80453327389320_3_alg».proof.Proof.ReferenceValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (linear)
open scoped BigOperators

/-- The regrouped product of the regrouped activations, the narrowed weights and the bias as one row is x @ wᵀ + b. -/
theorem regroup (x : S8x2048x4096.Idx → EReal) (w : FVec Ideal S4096x4096 .f32) (b : S4096.Idx → EReal) :
    shapeCast S8x2048x4096
        (prod (shapeCast S16384x4096 x shapeCasts_S8x2048x4096_S16384x4096) (truncf .bf16 w bitsLt_bf16_f32)
          (shapeCast S1x4096 b shapeCasts_S4096_S1x4096))
        shapeCasts_S16384x4096_S8x2048x4096
      = linear x w b := by
  funext i
  have h0 : (i 0).val < 8 := (i 0).isLt
  have h1 : (i 1).val < 2048 := (i 1).isLt
  have h2 : (i 2).val < 4096 := (i 2).isLt
  rw [shapeCast_apply _ shapeCasts_S16384x4096_S8x2048x4096 i
    (ix2 (⟨(i 0).val * 2048 + (i 1).val, by omega⟩ : Fin 16384) (⟨(i 2).val, h2⟩ : Fin 4096))
    (by rewrite [Shape.rowMajor_val_two, Shape.rowMajor_val_three]
        show ((i 0).val * 2048 + (i 1).val) * 4096 + (i 2).val = ((i 0).val * 2048 + (i 1).val) * 4096 + (i 2).val
        rfl)]
  show prodAt _ _ _ (⟨(i 0).val * 2048 + (i 1).val, by omega⟩ : Fin 16384) (⟨(i 2).val, h2⟩ : Fin 4096) = _
  unfold prodAt linear
  have hx : ∀ k : Fin 4096, shapeCast S16384x4096 x shapeCasts_S8x2048x4096_S16384x4096
        (ix2 (⟨(i 0).val * 2048 + (i 1).val, by omega⟩ : Fin 16384) k)
      = x (ix3 (⟨(i 0).val, h0⟩ : Fin 8) (⟨(i 1).val, h1⟩ : Fin 2048) k) := fun k =>
    shapeCast_apply x shapeCasts_S8x2048x4096_S16384x4096 _ _
      (by rewrite [Shape.rowMajor_val_two, Shape.rowMajor_val_three]
          show ((i 0).val * 2048 + (i 1).val) * 4096 + k.val = ((i 0).val * 2048 + (i 1).val) * 4096 + k.val
          rfl)
  have hb : shapeCast S1x4096 b shapeCasts_S4096_S1x4096 (ix2 (0 : Fin 1) (⟨(i 2).val, h2⟩ : Fin 4096))
      = b (ix1 (⟨(i 2).val, h2⟩ : Fin 4096)) :=
    shapeCast_apply b shapeCasts_S4096_S1x4096 _ _
      (by rewrite [Shape.rowMajor_val_one, Shape.rowMajor_val_two]
          show (i 2).val = 0 * 4096 + (i 2).val
          omega)
  rw [hb]
  exact congrArg (· + _) (Finset.sum_congr rfl fun k _ => by rw [hx k]; rfl)

variable (m : (ℓ : Loc nD τ sig) → Buf (Elt Ideal) ℓ)

/-- THE KERNEL PROGRAM'S RESULT is x @ wᵀ + b of its arguments, with w the plainly unpacked weights. -/
theorem kernel_result (c : Dev nD) :
    shapeCast S8x2048x4096 (prod (V m c main_v71) (V m c main_v70) (V m c main_v72)) shapeCasts_S16384x4096_S8x2048x4096
      = linear (m ((c.tc : Thread nD τ).loc main_arg0))
          (Cert.Unpack.weightsPlain (F := Ideal) (m ((c.tc : Thread nD τ).loc main_arg1)) (m ((c.tc : Thread nD τ).loc main_arg2)))
          (m ((c.tc : Thread nD τ).loc main_arg3)) := by
  rw [V_rows, V_weights, V_bias, Cert.Unpack.weightsMasked_eq]
  exact regroup _ _ _

end Cert.Bridge

end
-- ==== Proof.lean ====
/-
  A linear layer with 3-bit block-quantized weights: the kernel program and its reference agree on the extended reals.

  Both programs unpack the weights the same way, except that the kernel program first masks every packed word to its low
  byte. Each 3-bit field is read by a right shift by k and a mask below bit 8 - k, so it sees only bits 0 to 7 of its
  word and the mask changes nothing, whatever the word (Proof/LibLowByte, Proof/Unpack). The kernel program then computes
  x @ wᵀ + b as one pipelined matrix product over 256 blocks of 64 rows, on activations regrouped into rows, and regroups
  the rows back; the reference computes it by one contraction. On the extended reals a change of float format is the
  identity and both contractions are the plain sum over the 4096 input features, so the results are equal entry by entry
  (Proof/KernelIdealPayload, Proof/KernelIdealValue, Proof/ReferenceValue, Proof/Bridge).

  The frames: each kernel program runs its host operations, its one region and the closing reshape to the end, writing
  only buffers of its own (Proof/KernelFrame, Proof/KernelIdealFrame); the reference is host operations only, and its
  frame is its run with the result dropped. The idealization rewrote nothing, so it is preserved trivially.
-/
import proofs.«411032_j80453327389320_3_alg».proof.Defs
import proofs.«411032_j80453327389320_3_alg».proof.Proof.Gen.Kernel
import proofs.«411032_j80453327389320_3_alg».proof.Proof.Gen.KernelIdeal
import proofs.«411032_j80453327389320_3_alg».proof.Proof.Gen.ReferenceIdeal
import proofs.«411032_j80453327389320_3_alg».proof.Proof.Gen.Pre_finite_inputs
import proofs.«411032_j80453327389320_3_alg».proof.Proof.KernelFrame
import proofs.«411032_j80453327389320_3_alg».proof.Proof.KernelIdealFrame
import proofs.«411032_j80453327389320_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with x @ wᵀ + b of them, w the weights unpacked
    from the packed words as they are. -/
theorem algebraic : Cert.algebraic_KernelIdeal_ReferenceIdeal := by
  intro m ρ m' ρ' _ hagree
  refine ⟨fun c => Cert.ReferenceIdeal.RefValue.linear
      (m ((c.tc : Thread Cert.KernelIdeal.nD Cert.KernelIdeal.τ).loc Cert.KernelIdeal.main_arg0))
      (Cert.Unpack.weightsPlain (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.Bridge.kernel_result m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
